-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S262144x64 : Shape := ⟨2, ![262144, 64]⟩
abbrev S262144 : Shape := ⟨1, ![262144]⟩
abbrev S16x4096 : Shape := ⟨2, ![16, 4096]⟩
abbrev S4096x16 : Shape := ⟨2, ![4096, 16]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S262144 : S_.BroadcastsInDim S262144 (![] : Fin 0 → Fin S262144.rank)
  reducesTo_S262144_S_d0 : S262144.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_
  bcast_S_S4096 : S_.BroadcastsInDim S4096 (![] : Fin 0 → Fin S4096.rank)
  reducesTo_S4096_S_d0 : S4096.ReducesTo [0] S_
  bcast_S_S262144x64 : S_.BroadcastsInDim S262144x64 (![] : Fin 0 → Fin S262144x64.rank)
  reducesTo_S262144x64_S_d0_1 : S262144x64.ReducesTo [0, 1] S_

variable [Facts]

def fn_part1 {F : FTy → Type} [FloatOps F] (main_arg1 : IVec S262144x64 32) (main_arg5 : FVec F S4096 .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S4096 .f32 := Host.absf main_arg5
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_c_8 : IVec S_ 32 := constantI S_ 32 0#32
  let main_v24 : IVec S262144x64 32 := broadcastInDim S262144x64 ![] bcast_S_S262144x64 main_c_8
  let main_v25 : IVec S262144x64 1 := cmpi .sge main_arg1 main_v24
  let main_c_9 : IVec S_ 1 := constantI S_ 1 1#1
  let main_v26 : IVec S_ 1 := (fun x v => Host.reduce IntOp.andi x v reducesTo_S262144x64_S_d0_1 h_S_) main_v25 main_c_9
  let main_v27 : IVec S_ 1 := andi main_v23 main_v26
  let main_c_10 : IVec S_ 32 := constantI S_ 32 15#32
  let main_v28 : IVec S262144x64 32 := broadcastInDim S262144x64 ![] bcast_S_S262144x64 main_c_10
  let main_v29 : IVec S262144x64 1 := cmpi .sle main_arg1 main_v28
  let main_c_11 : IVec S_ 1 := constantI S_ 1 1#1
  let main_v30 : IVec S_ 1 := (fun x v => Host.reduce IntOp.andi x v reducesTo_S262144x64_S_d0_1 h_S_) main_v29 main_c_11
  let main_v31 : IVec S_ 1 := andi main_v27 main_v30
  main_v31

def fn {F : FTy → Type} [FloatOps F] (main_arg0 : FVec F S4x2048x4096 .f32) (main_arg1 : IVec S262144x64 32) (main_arg2 : FVec F S262144 .f32) (main_arg3 : FVec F S16x4096 .f32) (main_arg4 : FVec F S4096x16 .f32) (main_arg5 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S262144 .f32 := Host.absf main_arg2
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_v9 : FVec F S16x4096 .f32 := Host.absf main_arg3
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S4096x16 .f32 := Host.absf main_arg4
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg1 main_arg5 main_v13 main_v16
-- ==== Kernel.lean ====
abbrev S4x2048x4096 : Shape := ⟨3, ![4, 2048, 4096]⟩
abbrev S262144x64 : Shape := ⟨2, ![262144, 64]⟩
abbrev S262144 : Shape := ⟨1, ![262144]⟩
abbrev S16x4096 : Shape := ⟨2, ![16, 4096]⟩
abbrev S4096x16 : Shape := ⟨2, ![4096, 16]⟩
abbrev S4096 : Shape := ⟨1, ![4096]⟩
abbrev S8192x4096 : Shape := ⟨2, ![8192, 4096]⟩
abbrev S4096x64x64 : Shape := ⟨3, ![4096, 64, 64]⟩
abbrev S4096x64x1 : Shape := ⟨3, ![4096, 64, 1]⟩
abbrev S1x4096 : Shape := ⟨2, ![1, 4096]⟩
abbrev S512x4096 : Shape := ⟨2, ![512, 4096]⟩
abbrev S256x64x64 : Shape := ⟨3, ![256, 64, 64]⟩
abbrev S256x64x1 : Shape := ⟨3, ![256, 64, 1]⟩
abbrev S256x16 : Shape := ⟨2, ![256, 16]⟩
abbrev S1x256 : Shape := ⟨2, ![1, 256]⟩
abbrev S512x256 : Shape := ⟨2, ![512, 256]⟩
abbrev S256x4096 : Shape := ⟨2, ![256, 4096]⟩
abbrev S512x16 : Shape := ⟨2, ![512, 16]⟩

abbrev nBuf : Space → Nat
  | .hbm => 12
  | .vmem => 13
  | .smem => 0
  | _ => 0

abbrev bufTy : (tb : Table) → Fin (tcTables nBuf tb) → BufTy
  | .hbm, ⟨0, _⟩ => ⟨S4x2048x4096, .f32⟩
  | .hbm, ⟨1, _⟩ => ⟨S262144x64, .i32⟩
  | .hbm, ⟨2, _⟩ => ⟨S262144, .f32⟩
  | .hbm, ⟨3, _⟩ => ⟨S16x4096, .f32⟩
  | .hbm, ⟨4, _⟩ => ⟨S4096x16, .f32⟩
  | .hbm, ⟨5, _⟩ => ⟨S4096, .f32⟩
  | .hbm, ⟨6, _⟩ => ⟨S8192x4096, .f32⟩
  | .hbm, ⟨7, _⟩ => ⟨S4096x64x64, .i32⟩
  | .hbm, ⟨8, _⟩ => ⟨S4096x64x1, .f32⟩
  | .hbm, ⟨9, _⟩ => ⟨S1x4096, .f32⟩
  | .hbm, ⟨10, _⟩ => ⟨S8192x4096, .f32⟩
  | .hbm, ⟨11, _⟩ => ⟨S4x2048x4096, .f32⟩
  | .local _ .vmem, ⟨0, _⟩ => ⟨S512x4096, .f32⟩
  | .local _ .vmem, ⟨1, _⟩ => ⟨S512x4096, .f32⟩
  | .local _ .vmem, ⟨2, _⟩ => ⟨S256x64x64, .i32⟩
  | .local _ .vmem, ⟨3, _⟩ => ⟨S256x64x64, .i32⟩
  | .local _ .vmem, ⟨4, _⟩ => ⟨S256x64x1, .f32⟩
  | .local _ .vmem, ⟨5, _⟩ => ⟨S256x64x1, .f32⟩
  | .local _ .vmem, ⟨6, _⟩ => ⟨S16x4096, .f32⟩
  | .local _ .vmem, ⟨7, _⟩ => ⟨S256x16, .f32⟩
  | .local _ .vmem, ⟨8, _⟩ => ⟨S256x16, .f32⟩
  | .local _ .vmem, ⟨9, _⟩ => ⟨S1x256, .f32⟩
  | .local _ .vmem, ⟨10, _⟩ => ⟨S1x256, .f32⟩
  | .local _ .vmem, ⟨11, _⟩ => ⟨S512x256, .f32⟩
  | .local _ .vmem, ⟨12, _⟩ => ⟨S512x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x64x64 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S16x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S4x2048x4096_S8192x4096 : S4x2048x4096.ShapeCasts S8192x4096
  shapeCasts_S262144x64_S4096x64x64 : S262144x64.ShapeCasts S4096x64x64
  shapeCasts_S262144_S4096x64x1 : S262144.ShapeCasts S4096x64x1
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  bitsLt_bf16_f32 : FTy.bits .bf16 < FTy.bits .f32
  inb_S256x64x64_S256x64x64_0_0_0 : ∀ a, (![0, 0, 0] : Fin 3 → Nat) a + S256x64x64.size a ≤ S256x64x64.size a
  h_S256x64x64 : 0 < S256x64x64.numel
  shapeCasts_S256x64x64_S256x64x64 : S256x64x64.ShapeCasts S256x64x64
  inb_S256x64x1_S256x64x1_0_0_0 : ∀ a, (![0, 0, 0] : Fin 3 → Nat) a + S256x64x1.size a ≤ S256x64x1.size a
  h_S256x64x1 : 0 < S256x64x1.numel
  shapeCasts_S256x64x1_S256x64x1 : S256x64x1.ShapeCasts S256x64x1
  broadcasts_S256x64x1_S256x64x64 : S256x64x1.Broadcasts S256x64x64
  shapeCasts_S256x64x64_S256x4096 : S256x64x64.ShapeCasts S256x4096
  inb_S16x4096_S16x4096_0_0 : ∀ a, (![0, 0] : Fin 2 → Nat) a + S16x4096.size a ≤ S16x4096.size a
  h_S16x4096 : 0 < S16x4096.numel
  inb_S256x16_S256x16_0_0 : ∀ a, (![0, 0] : Fin 2 → Nat) a + S256x16.size a ≤ S256x16.size a
  h_S256x16 : 0 < S256x16.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  shapeCasts_S8192x4096_S4x2048x4096 : S8192x4096.ShapeCasts S4x2048x4096
  dot_S512x4096_S256x4096_S512x256_1_1_0_0_n_n_wf : DotDims.WF S512x4096 S256x4096 S512x256 [1] [1] [0] [0] [] []
  dot_S512x4096_S16x4096_S512x16_1_1_0_0_n_n_wf : DotDims.WF S512x4096 S16x4096 S512x16 [1] [1] [0] [0] [] []
  dot_S512x16_S256x16_S512x256_1_1_0_0_n_n_wf : DotDims.WF S512x16 S256x16 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64x64.size a ≤ S4096x64x64.size a
  hwx0_1 : ∀ i : grid0.Coords, EltTy.bits .i32 = 32 ∨ (Rect.block (s := S4096x64x64) S256x64x64.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64x1.size a ≤ S4096x64x1.size a
  hwx0_2 : ∀ i : grid0.Coords, EltTy.bits .f32 = 32 ∨ (Rect.block (s := S4096x64x1) S256x64x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x4096.size a ≤ S16x4096.size a
  hwx0_3 : ∀ i : grid0.Coords, EltTy.bits .f32 = 32 ∨ (Rect.block (s := S16x4096) S16x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x16.size a ≤ S4096x16.size a
  hwx0_4 : ∀ i : grid0.Coords, EltTy.bits .f32 = 32 ∨ (Rect.block (s := S4096x16) S256x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x4096.size a
  hwx0_5 : ∀ i : grid0.Coords, EltTy.bits .f32 = 32 ∨ (Rect.block (s := S1x4096) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S8192x4096.size a
  hwx0_6 : ∀ i : grid0.Coords, EltTy.bits .f32 = 32 ∨ (Rect.block (s := S8192x4096) S512x256.size (cc0_transform_6 i) (hinb0_6 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf
def dot_S512x4096_S16x4096_S512x16_1_1_0_0_n_n : DotDims S512x4096 S16x4096 S512x16 where
  lhsContracting := [1]
  rhsContracting := [1]
  lhsNonContracting := [0]
  rhsNonContracting := [0]
  lhsBatch := []
  rhsBatch := []
  wf := dot_S512x4096_S16x4096_S512x16_1_1_0_0_n_n_wf
def dot_S512x16_S256x16_S512x256_1_1_0_0_n_n : DotDims S512x16 S256x16 S512x256 where
  lhsContracting := [1]
  rhsContracting := [1]
  lhsNonContracting := [0]
  rhsNonContracting := [0]
  lhsBatch := []
  rhsBatch := []
  wf := dot_S512x16_S256x16_S512x256_1_1_0_0_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x64x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x16.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4) S512x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S262144x64 : Shape := ⟨2, ![262144, 64]⟩
abbrev S262144 : Shape := ⟨1, ![262144]⟩
abbrev S16x4096 : Shape := ⟨2, ![16, 4096]⟩
abbrev S4096x16 : Shape := ⟨2, ![4096, 16]⟩
abbrev S4096 : Shape := ⟨1, ![4096]⟩
abbrev S_ : Shape := ⟨0, ![]⟩
abbrev S262144x1 : Shape := ⟨2, ![262144, 1]⟩
abbrev S4096x4096 : Shape := ⟨2, ![4096, 4096]⟩
abbrev S1x1x4096 : Shape := ⟨3, ![1, 1, 4096]⟩
abbrev S4x2048x16 : Shape := ⟨3, ![4, 2048, 16]⟩

abbrev nBuf : Space → Nat
  | .hbm => 24
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S262144x64, .i32⟩
  | .hbm, ⟨2, _⟩ => ⟨S262144, .f32⟩
  | .hbm, ⟨3, _⟩ => ⟨S16x4096, .f32⟩
  | .hbm, ⟨4, _⟩ => ⟨S4096x16, .f32⟩
  | .hbm, ⟨5, _⟩ => ⟨S4096, .f32⟩
  | .hbm, ⟨6, _⟩ => ⟨S_, .i32⟩
  | .hbm, ⟨7, _⟩ => ⟨S262144x64, .i32⟩
  | .hbm, ⟨8, _⟩ => ⟨S262144x64, .i32⟩
  | .hbm, ⟨9, _⟩ => ⟨S262144x64, .f32⟩
  | .hbm, ⟨10, _⟩ => ⟨S262144x1, .f32⟩
  | .hbm, ⟨11, _⟩ => ⟨S262144x64, .f32⟩
  | .hbm, ⟨12, _⟩ => ⟨S262144x64, .f32⟩
  | .hbm, ⟨13, _⟩ => ⟨S4096x4096, .f32⟩
  | .hbm, ⟨14, _⟩ => ⟨S4x2048x4096, .f32⟩
  | .hbm, ⟨15, _⟩ => ⟨S1x1x4096, .f32⟩
  | .hbm, ⟨16, _⟩ => ⟨S4x2048x4096, .f32⟩
  | .hbm, ⟨17, _⟩ => ⟨S4x2048x4096, .f32⟩
  | .hbm, ⟨18, _⟩ => ⟨S4x2048x16, .f32⟩
  | .hbm, ⟨19, _⟩ => ⟨S4x2048x4096, .f32⟩
  | .hbm, ⟨20, _⟩ => ⟨S_, .f32⟩
  | .hbm, ⟨21, _⟩ => ⟨S4x2048x4096, .f32⟩
  | .hbm, ⟨22, _⟩ => ⟨S4x2048x4096, .f32⟩
  | .hbm, ⟨23, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  bcast_S_S262144x64 : S_.BroadcastsInDim S262144x64 (![] : Fin 0 → Fin S262144x64.rank)
  bcast_S262144_S262144x1_0 : S262144.BroadcastsInDim S262144x1 (![0] : Fin 1 → Fin S262144x1.rank)
  bcast_S262144x1_S262144x64_0_1 : S262144x1.BroadcastsInDim S262144x64 (![0, 1] : Fin 2 → Fin S262144x64.rank)
  shapeCasts_S262144x64_S4096x4096 : S262144x64.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf

class Facts : Prop extends Facts₀ where

variable [Facts]
-- ==== Proof.Spec.lean ====
import Idealize.ShloMosaic.PureOps.Ideal.Laws
import Idealize.ShloMosaic.Lib.ValueIdx

/-!
# A 4-bit block-quantised linear layer with a low-rank correction, entry by entry

The weight matrix `W : [4096, 4096]` is stored as integer codes `q : [262144, 64]` with one scale per block of 64
consecutive entries of a row: row `o` owns the 64 blocks `o·64 … o·64 + 63`, and entry `(o, k)` lies in block
`o·64 + k/64` at lane `k % 64`. Its value is `(q − 8) · scale`. An output entry is

  `Σₖ x[k]·W[o,k]  +  b[o]  +  (Σᵣ (Σₖ x[k]·A[r,k]) · B[o,r]) · 1`

over the extended reals, the sums and products grouped exactly so: no term is moved across a sum, so no finiteness
is needed to compare two programs that both compute it.
-/

noncomputable section

namespace Cert.QuantLinear

open Idealize.ShloMosaic Idealize.ShloMosaic.ValueIdx

/-- The block of 64 codes that holds weight entry `(o, k)`. -/
def blockOf (o k : Fin 4096) : Fin 262144 := ⟨o.val * 64 + k.val / 64, by omega⟩

/-- The position of weight entry `(o, k)` inside its block. -/
def laneOf (k : Fin 4096) : Fin 64 := ⟨k.val % 64, Nat.mod_lt _ (by decide)⟩

/-- One output entry from a row of activations `xr`, a row of weights `w`, a bias, the down-projection `a` and a row
    `bc` of the up-projection. -/
def rowForm (xr w : Fin 4096 → EReal) (bias : EReal) (a : Fin 16 → Fin 4096 → EReal) (bc : Fin 16 → EReal) : EReal :=
  (∑ k : Fin 4096, xr k * w k) + bias
    + (∑ r : Fin 16, (∑ k : Fin 4096, xr k * a r k) * bc r) * Ideal.ofBits .f32 0x3F800000#32

/-- The dequantised weight `W[o, k] = (q − 8) · scale`, the code read signed and the `8` subtracted as a real. -/
def weight (q : IVec (⟨2, ![262144, 64]⟩ : Shape) 32) (s : FVec Ideal (⟨1, ![262144]⟩ : Shape) .f32) (o k : Fin 4096) : EReal :=
  ((((q (ix2 (blockOf o k) (laneOf k))).toInt : ℝ) : EReal) - Ideal.ofBits .f32 0x41000000#32) * s (ix1 (blockOf o k))

/-- The layer on the flattened batch: row `m = b·2048 + t` of the `[8192, 4096]` result. -/
def G2 (x : FVec Ideal (⟨3, ![4, 2048, 4096]⟩ : Shape) .f32) (q : IVec (⟨2, ![262144, 64]⟩ : Shape) 32)
    (s : FVec Ideal (⟨1, ![262144]⟩ : Shape) .f32) (A : FVec Ideal (⟨2, ![16, 4096]⟩ : Shape) .f32)
    (B : FVec Ideal (⟨2, ![4096, 16]⟩ : Shape) .f32) (b : FVec Ideal (⟨1, ![4096]⟩ : Shape) .f32) :
    FVec Ideal (⟨2, ![8192, 4096]⟩ : Shape) .f32 := fun i =>
  rowForm (fun k => x (ix3 (⟨(i 0).val / 2048, by have h : (i 0).val < 8192 := (i 0).isLt; show (i 0).val / 2048 < 4; omega⟩ : Fin 4)
      (⟨(i 0).val % 2048, Nat.mod_lt _ (by decide)⟩ : Fin 2048) k))
    (weight q s ⟨(i 1).val, (i 1).isLt⟩) (b (ix1 (⟨(i 1).val, (i 1).isLt⟩ : Fin 4096)))
    (fun r k => A (ix2 r k)) (fun r => B (ix2 (⟨(i 1).val, (i 1).isLt⟩ : Fin 4096) r))

/-- The layer at `[batch, position, feature]`. -/
def G (x : FVec Ideal (⟨3, ![4, 2048, 4096]⟩ : Shape) .f32) (q : IVec (⟨2, ![262144, 64]⟩ : Shape) 32)
    (s : FVec Ideal (⟨1, ![262144]⟩ : Shape) .f32) (A : FVec Ideal (⟨2, ![16, 4096]⟩ : Shape) .f32)
    (B : FVec Ideal (⟨2, ![4096, 16]⟩ : Shape) .f32) (b : FVec Ideal (⟨1, ![4096]⟩ : Shape) .f32) :
    FVec Ideal (⟨3, ![4, 2048, 4096]⟩ : Shape) .f32 := fun i =>
  rowForm (fun k => x (ix3 (⟨(i 0).val, (i 0).isLt⟩ : Fin 4) (⟨(i 1).val, (i 1).isLt⟩ : Fin 2048) k))
    (weight q s ⟨(i 2).val, (i 2).isLt⟩) (b (ix1 (⟨(i 2).val, (i 2).isLt⟩ : Fin 4096)))
    (fun r k => A (ix2 r k)) (fun r => B (ix2 (⟨(i 2).val, (i 2).isLt⟩ : Fin 4096) r))

/-- The float `8.0` denotes the real `8`. -/
theorem ofBits_eight : Ideal.ofBits .f32 0x41000000#32 = ((8 : ℝ) : EReal) := by
  simp [Ideal.ofBits, Ideal.ieee, -EReal.coe_mul]; norm_num

/-- For a code in `[0, 15]` the 32-bit subtraction `w − 8` does not wrap, so converting after subtracting is subtracting
    after converting. (Below `−2³¹ + 8` it wraps, and the two differ by `2³²`.) -/
theorem code_sub (w : BitVec 32) (h0 : 0 ≤ w.toInt) (h15 : w.toInt ≤ 15) :
    ((((w - 8#32).toInt : ℝ)) : EReal) = ((w.toInt : ℝ) : EReal) - Ideal.ofBits .f32 0x41000000#32 := by
  have hw : (w - 8#32).toInt = w.toInt - 8 := by
    rw [BitVec.toInt_sub]
    have h8 : (8#32 : BitVec 32).toInt = 8 := by decide
    rw [h8]
    exact Int.bmod_eq_of_le (by omega) (by omega)
  rw [hw, ofBits_eight, ← EReal.coe_sub]
  norm_num

end Cert.QuantLinear

end
-- ==== Proof.LibContractRhsT.lean ====
import Idealize.ShloMosaic.PureOps.Ideal.Laws
import Idealize.ShloMosaic.Lib.ValueIdx

/-!
# The contraction `[M, K] × [N, K]` read at an entry, on the extended reals

`DotDims.transposedRhs M K N` has the fields of every printed `…_1_1_0_0_n_n` record of rank-2 operands (contract the
left operand's axis 1 with the right operand's axis 1, no batch axes): the product `a · bᵀ`. Over it the host's
`dot_general` and a kernel's `tpu.matmul` into the zero splat are both, at entry `(p, q)`, the sum over `k` of
`a[p, k] · b[q, k]`.
-/

noncomputable section

namespace Cert.LibContractRhsT

open Idealize.ShloMosaic Idealize.ShloMosaic.ValueIdx

/-! ## The operand indices, axis by axis

At result index `j` and contraction index `c` the left operand is read at `(j 0, c)` and the right one at `(j 1, c)`:
a kept axis reads the result index at its place, the contracted axis reads the one coordinate of `c`. -/

/-- The left operand's row is the result's row. -/
theorem lhs_0 (M K N : Nat) (j : (⟨2, ![M, N]⟩ : Shape).Idx) (c : (DotDims.transposedRhs M K N).contr.Idx) :
    ((DotDims.transposedRhs M K N).lhsIdx j c 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction index's coordinate. -/
theorem lhs_1 (M K N : Nat) (j : (⟨2, ![M, N]⟩ : Shape).Idx) (c : (DotDims.transposedRhs M K N).contr.Idx) :
    ((DotDims.transposedRhs M K N).lhsIdx j c 1).val = (c ⟨0, Nat.one_pos⟩).val :=
  (DotDims.transposedRhs M K N).lhsIdx_val_of_single rfl j c

/-- The right operand's row is the result's column. -/
theorem rhs_0 (M K N : Nat) (j : (⟨2, ![M, N]⟩ : Shape).Idx) (c : (DotDims.transposedRhs M K N).contr.Idx) :
    ((DotDims.transposedRhs M K N).rhsIdx j c 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction index's coordinate. -/
theorem rhs_1 (M K N : Nat) (j : (⟨2, ![M, N]⟩ : Shape).Idx) (c : (DotDims.transposedRhs M K N).contr.Idx) :
    ((DotDims.transposedRhs M K N).rhsIdx j c 1).val = (c ⟨0, Nat.one_pos⟩).val :=
  (DotDims.transposedRhs M K N).rhsIdx_val_of_single rfl j c

/-- The sum over the one-axis contraction index, re-indexed by its coordinate `k : Fin K` and with both operand
    indices read off: `∑ k, a[p, k] · b[q, k]`. -/
theorem sum_eq (M K N : Nat) {φ₁ φ₂ : FTy} (a : FVec Ideal (⟨2, ![M, K]⟩ : Shape) φ₁)
    (b : FVec Ideal (⟨2, ![N, K]⟩ : Shape) φ₂) (p : Fin M) (q : Fin N) :
    (∑ c : (DotDims.transposedRhs M K N).contr.Idx,
        a ((DotDims.transposedRhs M K N).lhsIdx (ix2 p q) c) * b ((DotDims.transposedRhs M K N).rhsIdx (ix2 p q) c))
      = ∑ k : Fin K, a (ix2 p k) * b (ix2 q k) := by
  rw [← Equiv.sum_comp (ValueIdx.contrEquiv1 (DotDims.transposedRhs M K N) K rfl rfl).symm]
  refine Finset.sum_congr rfl fun k _ => ?_
  have hk := ValueIdx.contrEquiv1_symm_val (DotDims.transposedRhs M K N) K rfl rfl k
  have el : (DotDims.transposedRhs M K N).lhsIdx (ix2 p q) ((ValueIdx.contrEquiv1 (DotDims.transposedRhs M K N) K rfl rfl).symm k)
      = ix2 p k := funext fun x => Fin.ext (by
    match x with
    | ⟨0, _⟩ => exact lhs_0 M K N _ _
    | ⟨1, _⟩ => exact (lhs_1 M K N _ _).trans hk)
  have er : (DotDims.transposedRhs M K N).rhsIdx (ix2 p q) ((ValueIdx.contrEquiv1 (DotDims.transposedRhs M K N) K rfl rfl).symm k)
      = ix2 q k := funext fun x => Fin.ext (by
    match x with
    | ⟨0, _⟩ => exact rhs_0 M K N _ _
    | ⟨1, _⟩ => exact (rhs_1 M K N _ _).trans hk)
  rw [el, er]

/-! ## The contraction read at an entry -/

/-- The host's `dot_general` contracting both operands' last axes, at entry `(p, q)`: `∑ k, a[p, k] · b[q, k]`. -/
theorem dotGeneral_apply (M K N : Nat) {φ₁ φ₂ : FTy} (prec : Option ContractPrecision)
    (a : FVec Ideal (⟨2, ![M, K]⟩ : Shape) φ₁) (b : FVec Ideal (⟨2, ![N, K]⟩ : Shape) φ₂) (p : Fin M) (q : Fin N) :
    Host.dotGeneral (DotDims.transposedRhs M K N) prec a b (ix2 p q) = ∑ k : Fin K, a (ix2 p k) * b (ix2 q k) := by
  simp only [Host.dotGeneral]
  rw [Ideal.dotGeneral_apply]
  exact sum_eq M K N a b p q

/-- A kernel's `tpu.matmul` contracting both operands' last axes into the zero splat, at entry `(p, q)`: the same sum. -/
theorem matmul_zero_apply (M K N : Nat) {φ₁ φ₂ : FTy} (prec : Option ContractPrecision)
    (a : FVec Ideal (⟨2, ![M, K]⟩ : Shape) φ₁) (b : FVec Ideal (⟨2, ![N, K]⟩ : Shape) φ₂) (p : Fin M) (q : Fin N) :
    matmul (DotDims.transposedRhs M K N) prec a b (constant (F := Ideal) (⟨2, ![M, N]⟩ : Shape) .f32 0x00000000#32) (ix2 p q)
      = ∑ k : Fin K, a (ix2 p k) * b (ix2 q k) := by
  simp only [matmul]
  rw [Ideal.matmul_constant_zero_apply]
  exact sum_eq M K N a b p q

end Cert.LibContractRhsT

end
-- ==== Proof.Payload.lean ====
import proofs.«123627_j9380208575265_1_alg».proof.Proof.Gen.KernelIdeal.Skeleton
import proofs.«123627_j9380208575265_1_alg».proof.Proof.Spec
import proofs.«123627_j9380208575265_1_alg».proof.Proof.LibContractRhsT
import Idealize.ShloMosaic.Lib.Pipeline.Value
import Idealize.ShloMosaic.Lib.ValueLayout

/-!
# One entry of the kernel's tile

At a grid point the body holds a `[512, 4096]` block of activations, a `[256, 64, 64]` block of codes with its
`[256, 64, 1]` scales, the whole `[16, 4096]` down-projection, a `[256, 16]` block of the up-projection and a
`[1, 256]` piece of the bias. Entry `(p, j)` of the `[512, 256]` tile it stores is the layer's row form of row `p` of
the activations against row `j` of the dequantised tile.
-/

noncomputable section

namespace Cert.QuantLinear

open Idealize.ShloMosaic Idealize.ShloMosaic.ValueIdx Cert.KernelIdeal Cert.KernelIdeal.Gen

/-- Row `j`, column `k` of the dequantised weight tile: code `(j, k/64, k%64)` less 8, times scale `(j, k/64, 0)`. -/
def tileWeight (x1 : Vec Ideal S256x64x64 .i32) (x2 : Vec Ideal S256x64x1 .f32) (j : Fin 256) (k : Fin 4096) : EReal :=
  ((((x1 (ix3 j (⟨k.val / 64, by omega⟩ : Fin 64) (⟨k.val % 64, Nat.mod_lt _ (by decide)⟩ : Fin 64))).toInt : ℝ) : EReal)
      - Ideal.ofBits .f32 0x41000000#32)
    * x2 (ix3 j (⟨k.val / 64, by omega⟩ : Fin 64) (0 : Fin 1))

/-! ## The three contractions

Each of the body's three products contracts the last axis of both operands and has no batch axis, so its dimension
numbers are those of `a · bᵀ`, and into the zero accumulator entry `(p, q)` is `∑ₖ a[p, k] · b[q, k]`. -/

/-- Activations `[512, 4096]` against the dequantised tile `[256, 4096]`. -/
theorem dims_weight : dot_S512x4096_S256x4096_S512x256_1_1_0_0_n_n = DotDims.transposedRhs 512 4096 256 := rfl

/-- Activations `[512, 4096]` against the down-projection `[16, 4096]`. -/
theorem dims_down : dot_S512x4096_S16x4096_S512x16_1_1_0_0_n_n = DotDims.transposedRhs 512 4096 16 := rfl

/-- The rank-16 intermediate `[512, 16]` against the up-projection block `[256, 16]`. -/
theorem dims_up : dot_S512x16_S256x16_S512x256_1_1_0_0_n_n = DotDims.transposedRhs 512 16 256 := rfl

/-- The main product at `(p, j)`: the sum over the 4096 input features. -/
theorem matmul_weight_apply (a : FVec Ideal S512x4096 .bf16) (b : FVec Ideal S256x4096 .bf16) (p : Fin 512) (j : Fin 256) :
    matmul dot_S512x4096_S256x4096_S512x256_1_1_0_0_n_n none a b (constant (F := Ideal) S512x256 .f32 0x00000000#32) (ix2 p j)
      = ∑ k : Fin 4096, a (ix2 p k) * b (ix2 j k) := by
  rw [dims_weight]
  exact Cert.LibContractRhsT.matmul_zero_apply 512 4096 256 none a b p j

/-- The down-projection at `(p, r)`: the sum over the 4096 input features. -/
theorem matmul_down_apply (a : FVec Ideal S512x4096 .bf16) (b : FVec Ideal S16x4096 .bf16) (p : Fin 512) (r : Fin 16) :
    matmul dot_S512x4096_S16x4096_S512x16_1_1_0_0_n_n none a b (constant (F := Ideal) S512x16 .f32 0x00000000#32) (ix2 p r)
      = ∑ k : Fin 4096, a (ix2 p k) * b (ix2 r k) := by
  rw [dims_down]
  exact Cert.LibContractRhsT.matmul_zero_apply 512 4096 16 none a b p r

/-- The up-projection at `(p, j)`: the sum over the 16 ranks. -/
theorem matmul_up_apply (a : FVec Ideal S512x16 .bf16) (b : FVec Ideal S256x16 .bf16) (p : Fin 512) (j : Fin 256) :
    matmul dot_S512x16_S256x16_S512x256_1_1_0_0_n_n none a b (constant (F := Ideal) S512x256 .f32 0x00000000#32) (ix2 p j)
      = ∑ r : Fin 16, a (ix2 p r) * b (ix2 j r) := by
  rw [dims_up]
  exact Cert.LibContractRhsT.matmul_zero_apply 512 16 256 none a b p j

/-! ## The two layout operations that move data

Flattening `[256, 64, 64]` to `[256, 4096]` keeps the row-major position: `(j, k)` sits at `j · 4096 + k`, which is
`(j · 64 + k / 64) · 64 + k % 64`, the position of `(j, k / 64, k % 64)`. Broadcasting `[256, 64, 1]` along its unit
axis repeats the one scale of block `(j, kb)` over the block's 64 lanes. -/

/-- The flattened tile at `(j, k)` is the blocked tile at `(j, k / 64, k % 64)`. -/
theorem flatten_apply {α : Type} (v : S256x64x64.Idx → α) (h : S256x64x64.ShapeCasts S256x4096) (j : Fin 256) (k : Fin 4096) :
    shapeCast S256x4096 v h (ix2 j k)
      = v (ix3 j (⟨k.val / 64, by omega⟩ : Fin 64) (⟨k.val % 64, Nat.mod_lt _ (by decide)⟩ : Fin 64)) :=
  shapeCast_apply v h _ _ (by
    rw [Shape.rowMajor_val_three, Shape.rowMajor_val_two]
    show (j.val * 64 + k.val / 64) * 64 + k.val % 64 = j.val * 4096 + k.val
    omega)

/-- The scales broadcast along the lane axis: lane `l` of block `(j, kb)` reads the block's one scale. -/
theorem lanes_apply {α : Type} (v : S256x64x1.Idx → α) (h : S256x64x1.Broadcasts S256x64x64) (j : Fin 256) (kb l : Fin 64) :
    broadcastTo S256x64x64 v h (ix3 j kb l) = v (ix3 j kb (0 : Fin 1)) := by
  refine broadcastTo_apply v h (ix3 j kb l) (ix3 j kb (0 : Fin 1)) fun ax => ?_
  match ax with
  | ⟨0, _⟩ => rfl
  | ⟨1, _⟩ => rfl
  | ⟨2, _⟩ => rfl

/-- The stored tile at `(p, j)`. -/
theorem pay_apply (x0 : Vec Ideal S512x4096 .f32) (x1 : Vec Ideal S256x64x64 .i32) (x2 : Vec Ideal S256x64x1 .f32)
    (x3 : Vec Ideal S16x4096 .f32) (x4 : Vec Ideal S256x16 .f32) (x5 : Vec Ideal S1x256 .f32) (p : Fin 512) (j : Fin 256) :
    k0_pay1 (F := Ideal) x0 x1 x2 x3 x4 x5 (ix2 p j)
      = rowForm (fun k => x0 (ix2 p k)) (tileWeight x1 x2 j) (x5 (ix2 (0 : Fin 1) j))
          (fun r k => x3 (ix2 r k)) (fun r => x4 (ix2 j r)) := by
  unfold k0_pay1 rowForm
  -- The casts of the activations, the codes, the scales and the bias to their own shapes change nothing.
  rw [shapeCast_self, shapeCast_self, shapeCast_self, shapeCast_self]
  -- The last three operations are entrywise: (product₁ + bias) + product₂ · 1.
  rw [addf_apply, addf_apply, mulf_apply, broadcast_apply]
  -- The main and the up-projection products are sums over their contracted axis; the bias row is repeated down the tile.
  rw [matmul_weight_apply, matmul_up_apply, broadcastTo_1b_ab_apply]
  congr 1
  · -- ∑ₖ x[p, k] · W[j, k] + b[j]: compare the sums term by term.
    congr 1
    refine Finset.sum_congr rfl fun k _ => ?_
    -- Rounding to the narrower format is the identity on extended reals; entry (j, k) of the flattened tile is entry
    -- (j, k / 64, k % 64) of the blocked one, and there the body holds (code − 8) · scale.
    rw [truncf_apply, truncf_apply, flatten_apply, mulf_apply, subf_apply, sitofp_apply, broadcast_apply, lanes_apply]
    -- On extended reals the conversion of a code is its signed value as a real and the splat word is the constant it
    -- encodes: the factor of x[p, k] is the dequantised weight by definition.
    rfl
  · -- (∑ᵣ (∑ₖ x[p, k] · A[r, k]) · B[j, r]) · 1: the inner product is the down-projection, again a sum.
    refine congrArg (· * _) (Finset.sum_congr rfl fun r _ => ?_)
    rw [truncf_apply, truncf_apply, matmul_down_apply]
    refine congrArg (· * _) (Finset.sum_congr rfl fun k _ => ?_)
    rw [truncf_apply, truncf_apply]

end Cert.QuantLinear

end
-- ==== Proof.Blocks.lean ====
import proofs.«123627_j9380208575265_1_alg».proof.Proof.Gen.KernelIdeal.Frame
import proofs.«123627_j9380208575265_1_alg».proof.Proof.Payload
import Idealize.ShloMosaic.Lib.StableHlo.Run

/-!
# From the kernel's tiles to its result array

The grid is `16 × 16`: point `(g, h)` stores the `[512, 256]` tile at rows `g·512 …`, columns `h·256 …` of the
`[8192, 4096]` result. The 256 tiles cover it, so the array after the region is `G2` of the argument arrays.
-/

set_option maxRecDepth 16384

noncomputable section

namespace Cert.KernelIdeal.ValueOf

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.KernelIdeal.Gen Cert.QuantLinear

variable (m : (ℓ : Loc nD τ sig) → Buf (Elt Ideal) ℓ) (ρ : Dev nD → PrngReg)

/-! ## The arrays the region finds

Four host lines reshape arguments before the region; a reshape keeps the row-major position of every entry. -/

/-- The activations with the batch flattened. -/
theorem V_x (c : Dev nD) : (V m c main_v0 : S8192x4096.Idx → EReal)
    = shapeCast S8192x4096 (m ((c : Thread nD τ).loc main_arg0)) shapeCasts_S4x2048x4096_S8192x4096 := by
  show StableHlo.after hostOps0 (fun b => m (c, b)) (Proc.devRef .tc main_v0) = _
  after_results; rfl

/-- The codes as `[row, block in the row, lane]`. -/
theorem V_q (c : Dev nD) : (V m c main_v1 : S4096x64x64.Idx → BitVec 32)
    = shapeCast S4096x64x64 (m ((c : Thread nD τ).loc main_arg1)) shapeCasts_S262144x64_S4096x64x64 := by
  show StableHlo.after hostOps0 (fun b => m (c, b)) (Proc.devRef .tc main_v1) = _
  after_results; rfl

/-- The scales as `[row, block in the row, 1]`. -/
theorem V_s (c : Dev nD) : (V m c main_v2 : S4096x64x1.Idx → EReal)
    = shapeCast S4096x64x1 (m ((c : Thread nD τ).loc main_arg2)) shapeCasts_S262144_S4096x64x1 := by
  show StableHlo.after hostOps0 (fun b => m (c, b)) (Proc.devRef .tc main_v2) = _
  after_results; rfl

/-- The bias as one row. -/
theorem V_b (c : Dev nD) : (V m c main_v3 : S1x4096.Idx → EReal)
    = shapeCast S1x4096 (m ((c : Thread nD τ).loc main_arg5)) shapeCasts_S4096_S1x4096 := by
  show StableHlo.after hostOps0 (fun b => m (c, b)) (Proc.devRef .tc main_v3) = _
  after_results; rfl

/-- Row `r` of the flattened activations is position `r % 2048` of batch `r / 2048`. -/
theorem x_at (c : Dev nD) (r : Fin 8192) (k : Fin 4096) :
    V m c main_v0 (ix2 r k) = (m ((c : Thread nD τ).loc main_arg0)) (ix3 (⟨r.val / 2048, by omega⟩ : Fin 4) (⟨r.val % 2048, Nat.mod_lt _ (by decide)⟩ : Fin 2048) k) := by
  refine (congrFun (V_x m c) (ix2 r k)).trans ?_
  exact shapeCast_apply _ shapeCasts_S4x2048x4096_S8192x4096 (ix2 r k) _
    (by rewrite [Shape.rowMajor_val_two, Shape.rowMajor_val_three]
        show (r.val / 2048 * 2048 + r.val % 2048) * 4096 + k.val = r.val * 4096 + k.val
        omega)

/-- Code `(o, kb, l)` is lane `l` of block `o·64 + kb`. -/
theorem q_at (c : Dev nD) (o : Fin 4096) (kb l : Fin 64) :
    V m c main_v1 (ix3 o kb l) = (m ((c : Thread nD τ).loc main_arg1)) (ix2 (⟨o.val * 64 + kb.val, by omega⟩ : Fin 262144) l) := by
  refine (congrFun (V_q m c) (ix3 o kb l)).trans ?_
  exact shapeCast_apply _ shapeCasts_S262144x64_S4096x64x64 (ix3 o kb l) _
    (by rewrite [Shape.rowMajor_val_two, Shape.rowMajor_val_three]
        show (o.val * 64 + kb.val) * 64 + l.val = (o.val * 64 + kb.val) * 64 + l.val
        rfl)

/-- Scale `(o, kb, 0)` is that of block `o·64 + kb`. -/
theorem s_at (c : Dev nD) (o : Fin 4096) (kb : Fin 64) (z : Fin 1) :
    V m c main_v2 (ix3 o kb z) = (m ((c : Thread nD τ).loc main_arg2)) (ix1 (⟨o.val * 64 + kb.val, by omega⟩ : Fin 262144)) := by
  refine (congrFun (V_s m c) (ix3 o kb z)).trans ?_
  exact shapeCast_apply _ shapeCasts_S262144_S4096x64x1 (ix3 o kb z) _
    (by rewrite [Shape.rowMajor_val_one, Shape.rowMajor_val_three]
        show o.val * 64 + kb.val = (o.val * 64 + kb.val) * 1 + z.val
        omega)

/-- Bias `(0, o)` is bias `o`. -/
theorem b_at (c : Dev nD) (z : Fin 1) (o : Fin 4096) :
    V m c main_v3 (ix2 z o) = (m ((c : Thread nD τ).loc main_arg5)) (ix1 o) := by
  refine (congrFun (V_b m c) (ix2 z o)).trans ?_
  exact shapeCast_apply _ shapeCasts_S4096_S1x4096 (ix2 z o) _
    (by rewrite [Shape.rowMajor_val_one, Shape.rowMajor_val_two]
        show o.val = z.val * 4096 + o.val
        omega)

/-! ## The index maps, decided over the grid

Point `t` stores tile `(g, h)`; it reads activation rows by `g`, and codes, scales, up-projection rows and bias
columns by `h`; the down-projection is read whole. -/

theorem idx_facts : ∀ t : Fin cfg0.N,
    win0_0.index t (0 : Fin 2) = win0_6.index t (0 : Fin 2) ∧ win0_0.index t (1 : Fin 2) = 0
    ∧ win0_1.index t (0 : Fin 3) = win0_6.index t (1 : Fin 2) ∧ win0_1.index t (1 : Fin 3) = 0 ∧ win0_1.index t (2 : Fin 3) = 0
    ∧ win0_2.index t (0 : Fin 3) = win0_6.index t (1 : Fin 2) ∧ win0_2.index t (1 : Fin 3) = 0 ∧ win0_2.index t (2 : Fin 3) = 0
    ∧ win0_3.index t (0 : Fin 2) = 0 ∧ win0_3.index t (1 : Fin 2) = 0
    ∧ win0_4.index t (0 : Fin 2) = win0_6.index t (1 : Fin 2) ∧ win0_4.index t (1 : Fin 2) = 0
    ∧ win0_5.index t (0 : Fin 2) = 0 ∧ win0_5.index t (1 : Fin 2) = win0_6.index t (1 : Fin 2)
    ∧ win0_6.index t (0 : Fin 2) < 16 ∧ win0_6.index t (1 : Fin 2) < 16 :=
  (by decide +kernel : ∀ t : Fin grid0.N, _)

/-- Every tile is some point's. -/
theorem idx_onto : ∀ (g h : Fin 16), ∃ t : Fin cfg0.N, win0_6.index t = ![g.val, h.val] :=
  (by decide +kernel : ∀ (g h : Fin 16), ∃ t : Fin grid0.N, win0_6.index t = ![g.val, h.val])

/-- The tile row of point `t`. -/
def tileRow (t : Fin cfg0.N) : Fin 16 := ⟨win0_6.index t (0 : Fin 2), (idx_facts t).2.2.2.2.2.2.2.2.2.2.2.2.2.2.1⟩
/-- The tile column of point `t`. -/
def tileCol (t : Fin cfg0.N) : Fin 16 := ⟨win0_6.index t (1 : Fin 2), (idx_facts t).2.2.2.2.2.2.2.2.2.2.2.2.2.2.2⟩

theorem hz2 : (![0, 0] : Fin 2 → Nat) = fun _ => 0 := funext fun a => by fin_cases a <;> rfl
theorem hz3 : (![0, 0, 0] : Fin 3 → Nat) = fun _ => 0 := funext fun a => by fin_cases a <;> rfl

/-! ## Each window's block at a point, read off the argument arrays

A block's coordinate on an axis is the block index times the block's extent plus the coordinate inside the block. -/

abbrev xblk (c : Dev nD) (t : Fin cfg0.N) : Vec Ideal S512x4096 .f32 := iblk m c 0 t
abbrev qblk (c : Dev nD) (t : Fin cfg0.N) : Vec Ideal S256x64x64 .i32 := iblk m c 1 t
abbrev sblk (c : Dev nD) (t : Fin cfg0.N) : Vec Ideal S256x64x1 .f32 := iblk m c 2 t
abbrev ablk (c : Dev nD) (t : Fin cfg0.N) : Vec Ideal S16x4096 .f32 := iblk m c 3 t
abbrev bblk (c : Dev nD) (t : Fin cfg0.N) : Vec Ideal S256x16 .f32 := iblk m c 4 t
abbrev cblk (c : Dev nD) (t : Fin cfg0.N) : Vec Ideal S1x256 .f32 := iblk m c 5 t

theorem xblk_at (c : Dev nD) (t : Fin cfg0.N) (p : Fin 512) (k : Fin 4096) :
    xblk m c t (ix2 p k) = V m c main_v0 (ix2 (⟨(tileRow t).val * 512 + p.val, by have := (tileRow t).isLt; omega⟩ : Fin 8192) k) := by
  show V m c main_v0 (((cfg0.win 0).blk t).view.emb (ix2 p k)) = _
  refine congrArg (V m c main_v0) ?_
  obtain ⟨e0, e1, -⟩ := idx_facts t
  funext a; apply Fin.ext
  match a with
  | ⟨0, _⟩ => show win0_0.index t (0 : Fin 2) * 512 + 1 * p.val = win0_6.index t (0 : Fin 2) * 512 + p.val; omega
  | ⟨1, _⟩ => show win0_0.index t (1 : Fin 2) * 4096 + 1 * k.val = k.val; omega

theorem qblk_at (c : Dev nD) (t : Fin cfg0.N) (j : Fin 256) (kb l : Fin 64) :
    qblk m c t (ix3 j kb l) = V m c main_v1 (ix3 (⟨(tileCol t).val * 256 + j.val, by have := (tileCol t).isLt; omega⟩ : Fin 4096) kb l) := by
  show V m c main_v1 (((cfg0.win 1).blk t).view.emb (ix3 j kb l)) = _
  refine congrArg (V m c main_v1) ?_
  obtain ⟨-, -, e0, e1, e2, -⟩ := idx_facts t
  funext a; apply Fin.ext
  match a with
  | ⟨0, _⟩ => show win0_1.index t (0 : Fin 3) * 256 + 1 * j.val = win0_6.index t (1 : Fin 2) * 256 + j.val; omega
  | ⟨1, _⟩ => show win0_1.index t (1 : Fin 3) * 64 + 1 * kb.val = kb.val; omega
  | ⟨2, _⟩ => show win0_1.index t (2 : Fin 3) * 64 + 1 * l.val = l.val; omega

theorem sblk_at (c : Dev nD) (t : Fin cfg0.N) (j : Fin 256) (kb : Fin 64) (z : Fin 1) :
    sblk m c t (ix3 j kb z) = V m c main_v2 (ix3 (⟨(tileCol t).val * 256 + j.val, by have := (tileCol t).isLt; omega⟩ : Fin 4096) kb z) := by
  show V m c main_v2 (((cfg0.win 2).blk t).view.emb (ix3 j kb z)) = _
  refine congrArg (V m c main_v2) ?_
  obtain ⟨-, -, -, -, -, e0, e1, e2, -⟩ := idx_facts t
  funext a; apply Fin.ext
  match a with
  | ⟨0, _⟩ => show win0_2.index t (0 : Fin 3) * 256 + 1 * j.val = win0_6.index t (1 : Fin 2) * 256 + j.val; omega
  | ⟨1, _⟩ => show win0_2.index t (1 : Fin 3) * 64 + 1 * kb.val = kb.val; omega
  | ⟨2, _⟩ => show win0_2.index t (2 : Fin 3) * 1 + 1 * z.val = z.val; omega

theorem ablk_at (c : Dev nD) (t : Fin cfg0.N) (r : Fin 16) (k : Fin 4096) :
    ablk m c t (ix2 r k) = (m ((c : Thread nD τ).loc main_arg3)) (ix2 r k) := by
  show V m c main_arg3 (((cfg0.win 3).blk t).view.emb (ix2 r k)) = _
  rw [V_main_arg3]
  refine congrArg (m ((c : Thread nD τ).loc main_arg3)) ?_
  obtain ⟨-, -, -, -, -, -, -, -, e0, e1, -⟩ := idx_facts t
  funext a; apply Fin.ext
  match a with
  | ⟨0, _⟩ => show win0_3.index t (0 : Fin 2) * 16 + 1 * r.val = r.val; omega
  | ⟨1, _⟩ => show win0_3.index t (1 : Fin 2) * 4096 + 1 * k.val = k.val; omega

theorem bblk_at (c : Dev nD) (t : Fin cfg0.N) (j : Fin 256) (r : Fin 16) :
    bblk m c t (ix2 j r) = (m ((c : Thread nD τ).loc main_arg4)) (ix2 (⟨(tileCol t).val * 256 + j.val, by have := (tileCol t).isLt; omega⟩ : Fin 4096) r) := by
  show V m c main_arg4 (((cfg0.win 4).blk t).view.emb (ix2 j r)) = _
  rw [V_main_arg4]
  refine congrArg (m ((c : Thread nD τ).loc main_arg4)) ?_
  obtain ⟨-, -, -, -, -, -, -, -, -, -, e0, e1, -⟩ := idx_facts t
  funext a; apply Fin.ext
  match a with
  | ⟨0, _⟩ => show win0_4.index t (0 : Fin 2) * 256 + 1 * j.val = win0_6.index t (1 : Fin 2) * 256 + j.val; omega
  | ⟨1, _⟩ => show win0_4.index t (1 : Fin 2) * 16 + 1 * r.val = r.val; omega

theorem cblk_at (c : Dev nD) (t : Fin cfg0.N) (z : Fin 1) (j : Fin 256) :
    cblk m c t (ix2 z j) = V m c main_v3 (ix2 z (⟨(tileCol t).val * 256 + j.val, by have := (tileCol t).isLt; omega⟩ : Fin 4096)) := by
  show V m c main_v3 (((cfg0.win 5).blk t).view.emb (ix2 z j)) = _
  refine congrArg (V m c main_v3) ?_
  obtain ⟨-, -, -, -, -, -, -, -, -, -, -, -, e0, e1, -⟩ := idx_facts t
  funext a; apply Fin.ext
  match a with
  | ⟨0, _⟩ => show win0_5.index t (0 : Fin 2) * 1 + 1 * z.val = z.val; have := z.isLt; omega
  | ⟨1, _⟩ => show win0_5.index t (1 : Fin 2) * 256 + 1 * j.val = win0_6.index t (1 : Fin 2) * 256 + j.val; omega

/-! ## What a point writes back -/

/-- The row form depends on its five arguments only through their values. -/
theorem rowForm_congr {xr xr' w w' : Fin 4096 → EReal} {bias bias' : EReal} {a a' : Fin 16 → Fin 4096 → EReal}
    {bc bc' : Fin 16 → EReal} (h1 : ∀ k, xr k = xr' k) (h2 : ∀ k, w k = w' k) (h3 : bias = bias')
    (h4 : ∀ r k, a r k = a' r k) (h5 : ∀ r, bc r = bc' r) : rowForm xr w bias a bc = rowForm xr' w' bias' a' bc' := by
  rw [funext h1, funext h2, h3, (funext fun r => funext (h4 r) : a = a'), funext h5]

/-- Row `j` of the dequantised tile at point `t` is row `h·256 + j` of the dequantised weight. -/
theorem tileWeight_at (c : Dev nD) (t : Fin cfg0.N) (j : Fin 256) (k : Fin 4096) :
    tileWeight (qblk m c t) (sblk m c t) j k
      = weight (m ((c : Thread nD τ).loc main_arg1)) (m ((c : Thread nD τ).loc main_arg2)) (⟨(tileCol t).val * 256 + j.val, by have := (tileCol t).isLt; omega⟩ : Fin 4096) k := by
  unfold tileWeight weight
  rw [qblk_at, sblk_at, q_at, s_at]
  rfl

/-- The index of entry `(p, j)` of point `t`'s tile in the result array. -/
theorem emb6 (t : Fin cfg0.N) (p : Fin 512) (j : Fin 256) :
    (((cfg0.win 6).blk t).view.emb (ix2 p j) : S8192x4096.Idx)
      = ix2 (⟨(tileRow t).val * 512 + p.val, by have := (tileRow t).isLt; omega⟩ : Fin 8192)
          (⟨(tileCol t).val * 256 + j.val, by have := (tileCol t).isLt; omega⟩ : Fin 4096) := by
  funext a; apply Fin.ext
  match a with
  | ⟨0, _⟩ => show win0_6.index t (0 : Fin 2) * 512 + 1 * p.val = win0_6.index t (0 : Fin 2) * 512 + p.val; omega
  | ⟨1, _⟩ => show win0_6.index t (1 : Fin 2) * 256 + 1 * j.val = win0_6.index t (1 : Fin 2) * 256 + j.val; omega

/-- WHAT POINT `t` WRITES BACK is its tile of `G2` of the argument arrays. -/
theorem flushed_eq (c : Dev nD) (t : Fin cfg0.N) :
    (dats m 0 c).flushed 6 t = ((cfg0.win 6).blk t).view.read (Elt Ideal)
      (G2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  show (cfg0.win 6).cut (grid0.coords t) ((dats m 0 c).after 6 t) = _
  rw [after0_6]
  unfold out0_6
  rw [View.canon_unit_zero hz2]
  simp only [View.ld_unit_zero (S := S512x4096) hz2, View.ld_unit_zero (S := S256x64x64) hz3,
    View.ld_unit_zero (S := S256x64x1) hz3, View.ld_unit_zero (S := S16x4096) hz2,
    View.ld_unit_zero (S := S256x16) hz2, View.ld_unit_zero (S := S1x256) hz2]
  funext y
  obtain ⟨p, j, rfl⟩ : ∃ (p : Fin 512) (j : Fin 256), y = ix2 p j := ⟨y 0, y 1, eq_ix2 y⟩
  refine (pay_apply (xblk m c t) (qblk m c t) (sblk m c t) (ablk m c t) (bblk m c t) (cblk m c t) p j).trans ?_
  show _ = G2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 6).blk t).view.emb (ix2 p j))
  rw [emb6]
  unfold G2
  refine rowForm_congr (fun k => ?_) (fun k => ?_) ?_ (fun r k => ?_) (fun r => ?_)
  · exact (xblk_at m c t p k).trans (x_at m c _ k)
  · exact tileWeight_at m c t j k
  · exact (cblk_at m c t 0 j).trans (b_at m c 0 _)
  · exact ablk_at m c t r k
  · exact bblk_at m c t j r

/-! ## The tiles cover the array -/

/-- An index of the array is in point `t`'s tile iff each coordinate is in the tile's range on its axis. -/
theorem mem_blk (t : Fin cfg0.N) (i : S8192x4096.Idx) :
    i ∈ ((cfg0.win 6).blk t).view.set ↔ ∀ a : Fin 2, win0_6.index t a * S512x256.size a ≤ (i a).val
      ∧ (i a).val < win0_6.index t a * S512x256.size a + S512x256.size a := by
  show i ∈ ((View.whole main_v4).slice (win0_6.rect t)).set ↔ _
  rw [View.set_slice_whole, Rect.mem_set_unit]
  exact Iff.rfl

/-- Row `r`, column `n` lies in the tile `(r / 512, n / 256)`. -/
theorem cover (i : S8192x4096.Idx) : ∃ t : Fin cfg0.N, (cfg0.win 6).flush t = true ∧ i ∈ ((cfg0.win 6).blk t).view.set := by
  have hi0 : (i 0).val < 8192 := (i 0).isLt
  have hi1 : (i 1).val < 4096 := (i 1).isLt
  obtain ⟨t, ht⟩ := idx_onto ⟨(i 0).val / 512, by omega⟩ ⟨(i 1).val / 256, by omega⟩
  have q0 : win0_6.index t (0 : Fin 2) = (i 0).val / 512 := congrFun ht 0
  have q1 : win0_6.index t (1 : Fin 2) = (i 1).val / 256 := congrFun ht 1
  refine ⟨t, flush0_6 t, ?_⟩
  rw [mem_blk]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 256 ≤ (i 1).val ∧ (i 1).val < win0_6.index t (1 : Fin 2) * 256 + 256; omega

/-- The result array after the region. -/
theorem final (c : Dev nD) :
    (dats m 0 c).arrAt 6 cfg0.N = G2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 6 (G2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
    (fun t _ => flushed_eq m c t) cover

end Cert.KernelIdeal.ValueOf

end
-- ==== Proof.KernelRun.lean ====
import proofs.«123627_j9380208575265_1_alg».proof.Proof.Blocks

/-!
# The kernel program's run, read

After the region one host line reshapes the `[8192, 4096]` array to `[4, 2048, 4096]`: entry `(b, t, o)` is entry
`(b·2048 + t, o)`, which is the layer at `(b, t, o)`.
-/

set_option maxRecDepth 16384

noncomputable section

namespace Cert.KernelIdeal.ValueOf

open Idealize.ShloMosaic Idealize.ShloMosaic.TcCoe Idealize.ShloMosaic.ValueIdx Idealize.SL.Sem Idealize.ShloMosaic.StableHlo
open Cert.KernelIdeal Cert.KernelIdeal.Gen Cert.QuantLinear

variable (m : (ℓ : Loc nD τ sig) → Buf (Elt Ideal) ℓ) (ρ : Dev nD → PrngReg)

/-- Flattening the batch and unflattening it again: row `b·2048 + t` of the flattened layer is the layer at `(b, t)`. -/
theorem G2_row (x : FVec Ideal S4x2048x4096 .f32) (q : IVec S262144x64 32) (s : FVec Ideal S262144 .f32)
    (A : FVec Ideal S16x4096 .f32) (B : FVec Ideal S4096x16 .f32) (bias : FVec Ideal S4096 .f32)
    (b : Fin 4) (t : Fin 2048) (o : Fin 4096) :
    G2 x q s A B bias (ix2 (⟨b.val * 2048 + t.val, by omega⟩ : Fin 8192) o) = G x q s A B bias (ix3 b t o) := by
  unfold G2 G
  refine rowForm_congr (fun k => ?_) (fun k => rfl) rfl (fun r k => rfl) (fun r => rfl)
  refine congrArg x (funext fun a => Fin.ext ?_)
  have hb : b.val < 4 := b.isLt
  have ht : t.val < 2048 := t.isLt
  match a with
  | ⟨0, _⟩ => show (b.val * 2048 + t.val) / 2048 = b.val; omega
  | ⟨1, _⟩ => show (b.val * 2048 + t.val) % 2048 = t.val; omega
  | ⟨2, _⟩ => rfl

/-- The result buffer after the host line that follows the region: the reshape of the region's result array. -/
theorem tail_eq (c : Dev nD) :
    Pipeline.afterTail₀ cfgs (dats m) 0 (V0 m) [hostOps1] c main_v5 = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  unfold Pipeline.afterTail₀
  show StableHlo.after hostOps1 _ (Proc.devRef .tc main_v5) = _
  after_results
  -- the line's operand is the result window's array, which the region left at the flattened layer
  have hw : Pipeline.withArrays (cfgs 0).spec c (V0 m c) (fun w => (dats m 0 c).arrAt w (cfgs 0).N) (Proc.devRef .tc main_v4)
      = G2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
    (Pipeline.withArrays_arr spec0 launch0.win.arr_inj c _ _ 6).trans (final m c)
  funext i
  obtain ⟨b, t, o, rfl⟩ : ∃ (b : Fin 4) (t : Fin 2048) (o : Fin 4096), i = ix3 b t o := ⟨i 0, i 1, i 2, eq_ix3 i⟩
  refine (congrFun (congrArg (fun v => shapeCast S4x2048x4096 v shapeCasts_S8192x4096_S4x2048x4096) hw) (ix3 b t o)).trans ?_
  -- a reshape keeps row-major positions: (b, t, o) sits where (b·2048 + t, o) did
  refine (shapeCast_apply _ shapeCasts_S8192x4096_S4x2048x4096 (ix3 b t o)
    (ix2 (⟨b.val * 2048 + t.val, by omega⟩ : Fin 8192) o)
    (by rewrite [Shape.rowMajor_val_two, Shape.rowMajor_val_three]
        show (b.val * 2048 + t.val) * 4096 + o.val = (b.val * 2048 + t.val) * 4096 + o.val
        rfl)).trans ?_
  exact G2_row _ _ _ _ _ _ b t o

/-- Every weakly fair execution ends with the result buffer at the layer of the arguments, the arguments unchanged:
    the frame run, its post read at the result buffer and at each argument. -/
theorem run : θ_run defs (onTc (τ := τ) (main (F := Ideal))) ⟨m, fun _ => 0, ρ⟩ fun r => ∀ c : Dev nD,
      r.2.mem ((c : Thread nD τ).loc main_v5) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c)⟩)
    (run_main m ρ)

end Cert.KernelIdeal.ValueOf

end
-- ==== Proof.RefValue.lean ====
import proofs.«123627_j9380208575265_1_alg».proof.Proof.Gen.ReferenceIdeal.Read
import proofs.«123627_j9380208575265_1_alg».proof.Proof.Spec

/-!
# The reference computes the layer

Read one operation at a time, the reference's result at `(b, t, o)` is the row form of activation row `(b, t)` against
weight row `o`. The reference subtracts 8 from the codes as 32-bit integers before converting them; for codes in
`[0, 15]` that subtraction does not wrap, and the converted difference is the real `q − 8`.

The argument has three parts, one per summand of the row form.

* The dequantised matrix. The reference builds `(q − 8) · scale` on the `[262144, 64]` layout of the codes, the scale
  of block `j` spread along the 64 lanes of row `j`, and then reads the same row-major data as `[4096, 4096]`. Entry
  `(o, k)` of the latter is element number `o·4096 + k`; as `4096 = 64·64` that is lane `k % 64` of block
  `o·64 + k/64`, which is where the specification's `weight` looks.
* The bias is spread over batch and position, so at `(b, t, o)` it reads `b[o]`.
* The low-rank correction is two contractions, `Σₖ x[b,t,k]·A[r,k]` and then `Σᵣ (·)·B[o,r]`, times the literal `1.0`,
  which is kept as the same word on both sides.

Each contraction is already a sum over its one contracted coordinate; what is left is to see which entries it reads.
-/

noncomputable section

namespace Cert.QuantLinear

open Idealize.ShloMosaic Idealize.ShloMosaic.ValueIdx Cert.ReferenceIdeal Cert.ReferenceIdeal.Gen

/-! ## The dequantised weight matrix -/

/-- Reading `[262144, 64]` as `[4096, 4096]`: entry `(o, k)` is element `o·4096 + k` in row-major order. Dividing by the
    block length, `(o·4096 + k) / 64 = o·64 + k/64` because `4096 = 64·64`, and `(o·4096 + k) % 64 = k % 64` because
    `o·4096` is a multiple of 64. -/
theorem reshape_idx (o k : Fin 4096) : Read.idx_main_v6 (ix2 o k) = ix2 (blockOf o k) (laneOf k) :=
  funext fun a => Fin.ext (by
    have ho : o.val < 4096 := o.isLt
    have hk : k.val < 4096 := k.isLt
    match a with
    | ⟨0, _⟩ => show (o.val * 4096 + k.val) / 64 = o.val * 64 + k.val / 64; omega
    | ⟨1, _⟩ => show (o.val * 4096 + k.val) % 64 = k.val % 64; omega)

/-- The scales `[262144]` become a column `[262144, 1]` and the column is repeated along the 64 lanes: lane `l` of block
    `j` reads the scale of block `j`, whatever `l` is. -/
theorem scale_idx (j : Fin 262144) (l : Fin 64) : Read.idx_main_v3 (Read.idx_main_v4 (ix2 j l)) = ix1 j :=
  funext fun a => match a with
    | ⟨0, _⟩ => rfl

/-- On the extended reals a signed conversion is exact, so the float made from the word `w − 8` is the integer that
    word denotes. For a code `w` in `[0, 15]` the 32-bit subtraction does not wrap and that integer is `w − 8`. -/
theorem code_read (w : BitVec 32) (h0 : 0 ≤ w.toInt) (h15 : w.toInt ≤ 15) :
    FloatOps.sitofp (F := Ideal) .f32 (IntOp.subi w 8#32)
      = ((w.toInt : ℝ) : EReal) - Ideal.ofBits .f32 0x41000000#32 :=
  code_sub w h0 h15

/-- Entry `(o, k)` of the matrix the reference contracts with is the specification's `W[o, k]`: the reshape reads the
    product `code · scale` at block `o·64 + k/64`, lane `k % 64`; the code there is the converted `q − 8`, the scale is
    that block's. -/
theorem weight_read (x1 : IVec S262144x64 32) (x2 : FVec Ideal S262144 .f32)
    (hq : ∀ i : S262144x64.Idx, 0 ≤ (x1 i).toInt ∧ (x1 i).toInt ≤ 15) (o k : Fin 4096) :
    Read.val_main_v6 (F := Ideal) x1 x2 (ix2 o k) = weight x1 x2 o k := by
  rw [Read.val_main_v6_apply, reshape_idx, Read.val_main_v5_apply, Read.val_main_v2_apply, Read.val_main_v1_apply,
    Read.val_main_v0_apply, Read.val_main_c_apply, Read.val_main_v4_apply, Read.val_main_v3_apply, scale_idx,
    code_read _ (hq _).1 (hq _).2, Ideal.mulf_def]
  rfl

/-! ## The three summands at `(b, t, o)` -/

/-- The first contraction runs over the last axis of the activations and the second axis of the matrix: at `(b, t, o)`
    it is `Σₖ x[b,t,k] · W[o,k]`. -/
theorem main_read (x0 : FVec Ideal S4x2048x4096 .f32) (x1 : IVec S262144x64 32) (x2 : FVec Ideal S262144 .f32)
    (hq : ∀ i : S262144x64.Idx, 0 ≤ (x1 i).toInt ∧ (x1 i).toInt ≤ 15) (b : Fin 4) (t : Fin 2048) (o : Fin 4096) :
    Read.val_main_v7 (F := Ideal) x0 x1 x2 (ix3 b t o) = ∑ k : Fin 4096, x0 (ix3 b t k) * weight x1 x2 o k := by
  rw [Read.val_main_v7_apply]
  refine Finset.sum_congr rfl fun k _ => ?_
  -- the left factor keeps `(b, t)` and takes the contracted coordinate last; the right factor is row `o`, column `k`
  have el : Read.lidx_main_v7 (ix3 b t o) k = ix3 b t k := funext fun a => match a with
    | ⟨0, _⟩ => rfl
    | ⟨1, _⟩ => rfl
    | ⟨2, _⟩ => rfl
  have er : Read.ridx_main_v7 (ix3 b t o) k = ix2 o k := funext fun a => match a with
    | ⟨0, _⟩ => rfl
    | ⟨1, _⟩ => rfl
  rw [el, er, weight_read x1 x2 hq]

/-- The bias `[4096]` is placed on the last axis of `[1, 1, 4096]` and repeated over batch and position: at `(b, t, o)`
    it is `b[o]`. -/
theorem bias_read (x5 : FVec Ideal S4096 .f32) (b : Fin 4) (t : Fin 2048) (o : Fin 4096) :
    Read.val_main_v9 (F := Ideal) x5 (ix3 b t o) = x5 (ix1 o) := by
  rw [Read.val_main_v9_apply, Read.val_main_v8_apply]
  have e : Read.idx_main_v8 (Read.idx_main_v9 (ix3 b t o)) = ix1 o := funext fun a => match a with
    | ⟨0, _⟩ => rfl
  rw [e]

/-- The down-projection at `(b, t, r)` is `Σₖ x[b,t,k] · A[r,k]`. -/
theorem down_read (x0 : FVec Ideal S4x2048x4096 .f32) (x3 : FVec Ideal S16x4096 .f32)
    (b : Fin 4) (t : Fin 2048) (r : Fin 16) :
    Read.val_main_v11 (F := Ideal) x0 x3 (ix3 b t r) = ∑ k : Fin 4096, x0 (ix3 b t k) * x3 (ix2 r k) := by
  rw [Read.val_main_v11_apply]
  refine Finset.sum_congr rfl fun k _ => ?_
  have el : Read.lidx_main_v11 (ix3 b t r) k = ix3 b t k := funext fun a => match a with
    | ⟨0, _⟩ => rfl
    | ⟨1, _⟩ => rfl
    | ⟨2, _⟩ => rfl
  have er : Read.ridx_main_v11 (ix3 b t r) k = ix2 r k := funext fun a => match a with
    | ⟨0, _⟩ => rfl
    | ⟨1, _⟩ => rfl
  rw [el, er]

/-- The up-projection contracts the rank axis: at `(b, t, o)` it is `Σᵣ (Σₖ x[b,t,k] · A[r,k]) · B[o,r]`. -/
theorem lowrank_read (x0 : FVec Ideal S4x2048x4096 .f32) (x3 : FVec Ideal S16x4096 .f32)
    (x4 : FVec Ideal S4096x16 .f32) (b : Fin 4) (t : Fin 2048) (o : Fin 4096) :
    Read.val_main_v12 (F := Ideal) x0 x3 x4 (ix3 b t o)
      = ∑ r : Fin 16, (∑ k : Fin 4096, x0 (ix3 b t k) * x3 (ix2 r k)) * x4 (ix2 o r) := by
  rw [Read.val_main_v12_apply]
  refine Finset.sum_congr rfl fun r _ => ?_
  have el : Read.lidx_main_v12 (ix3 b t o) r = ix3 b t r := funext fun a => match a with
    | ⟨0, _⟩ => rfl
    | ⟨1, _⟩ => rfl
    | ⟨2, _⟩ => rfl
  have er : Read.ridx_main_v12 (ix3 b t o) r = ix2 o r := funext fun a => match a with
    | ⟨0, _⟩ => rfl
    | ⟨1, _⟩ => rfl
  rw [el, er, down_read]

/-- The literal `1.0` is spread over the whole result; it is kept as its word, never evaluated. -/
theorem one_read (i : S4x2048x4096.Idx) :
    Read.val_main_v13 (F := Ideal) i = Ideal.ofBits .f32 0x3F800000#32 := by
  rw [Read.val_main_v13_apply, Read.val_main_cst_apply, Ideal.ofBits_def]

/-! ## The result -/

/-- The reference's result is `G` of its arguments, when every code lies in `[0, 15]`. -/
theorem ref_eq (x0 : FVec Ideal S4x2048x4096 .f32) (x1 : IVec S262144x64 32) (x2 : FVec Ideal S262144 .f32)
    (x3 : FVec Ideal S16x4096 .f32) (x4 : FVec Ideal S4096x16 .f32) (x5 : FVec Ideal S4096 .f32)
    (hq : ∀ i : S262144x64.Idx, 0 ≤ (x1 i).toInt ∧ (x1 i).toInt ≤ 15) :
    Cert.ReferenceIdeal.Read.val_main_v15 (F := Ideal) x0 x1 x2 x3 x4 x5 = G x0 x1 x2 x3 x4 x5 := by
  funext i
  -- name the three coordinates of the entry: batch `b`, position `t`, output feature `o`
  obtain ⟨b, t, o, rfl⟩ : ∃ (b : Fin 4) (t : Fin 2048) (o : Fin 4096), i = ix3 b t o := ⟨i 0, i 1, i 2, eq_ix3 i⟩
  -- the last three operations are two sums and a product of entries; each summand was read above
  rw [Read.val_main_v15_apply, Read.val_main_v10_apply, Read.val_main_v14_apply, main_read x0 x1 x2 hq, bias_read,
    lowrank_read, one_read, Ideal.addf_def, Ideal.addf_def, Ideal.mulf_def]
  -- what is left is the row form of row `(b, t)` against weight row `o`, spelled with the coordinates of `(b, t, o)`
  rfl

end Cert.QuantLinear

end
-- ==== Proof.PreDecode.lean ====
import proofs.«123627_j9380208575265_1_alg».proof.Proof.Gen.Pre_finite_inputs
import Idealize.ShloMosaic.Lib.ReduceAll
import Idealize.ShloMosaic.Lib.StableHlo.Predicate
import Idealize.ShloMosaic.Lib.ValueIdx

/-!
# The codes' range, read out of the precondition

The precondition is a conjunction of whole-array tests reduced by `and`; its last two conjuncts compare every code,
signed, with `0` from below and with `15` from above.
-/

noncomputable section

namespace Cert.QuantLinear

open Idealize.ShloMosaic Cert.Pre_finite_inputs Cert.Pre_finite_inputs.Gen

/-- A shape of rank 0 has exactly one index: there is no axis on which two indices could differ. -/
instance : Subsingleton S_.Idx := ⟨fun a b => funext fun d => d.elim0⟩

/-- Where the precondition is all ones, every code is in `[0, 15]`. -/
theorem codes_of_pre {F : FTy → Type} [FloatOps F] (a0 : FVec F S4x2048x4096 .f32) (a1 : IVec S262144x64 32)
    (a2 : FVec F S262144 .f32) (a3 : FVec F S16x4096 .f32) (a4 : FVec F S4096x16 .f32) (a5 : FVec F S4096 .f32)
    (h : Cert.Pre_finite_inputs.fn (F := F) a0 a1 a2 a3 a4 a5 = (fun _ => 1#1)) (i : S262144x64.Idx) :
    0 ≤ (a1 i).toInt ∧ (a1 i).toInt ≤ 15 := by
  -- The precondition is a single one-bit word (an array with one index); the hypothesis says that word is 1.
  have h0 := congrFun h ValueIdx.ix0
  dsimp only [fn, fn_part1] at h0
  -- That word is a left-nested conjunction  ((((((t₁ ∧ t₂) ∧ t₃) ∧ t₄) ∧ t₅) ∧ t₆) ∧ t₇)  of seven whole-array tests.
  -- A conjunction of bits is 1 exactly when both bits are 1, so peeling twice from the outside gives the last two:
  -- t₇, "every code ≤ 15", and then t₆, "every code ≥ 0". The five finiteness tests t₁ … t₅ are not needed.
  obtain ⟨h27, h30⟩ := IntOp.andi_eq_one.1 h0
  obtain ⟨_, h26⟩ := IntOp.andi_eq_one.1 h27
  -- Each test is the reduction by `and` of an array of bits over all of its axes, started from 1. Such a reduction
  -- can only come out 1 if every bit that went into it is 1; in particular the bit at our index `i`.
  have hge := Host.reduce_andi_all _ _ _ _ _ h26 i
  have hle := Host.reduce_andi_all _ _ _ _ _ h30 i
  -- The array of bits is an elementwise comparison, so its bit at `i` compares the code `a1 i` with the other operand
  -- at `i`; that operand is a scalar constant broadcast to the codes' shape, which reads the constant at every index.
  -- A signed comparison's bit is 1 exactly when the two words, read as signed integers, are in that order.
  have hlo : (0#32 : BitVec 32).toInt ≤ (a1 i).toInt := IntOp.cmpi_sge.1 hge
  have hhi : (a1 i).toInt ≤ (15#32 : BitVec 32).toInt := IntOp.cmpi_sle.1 hle
  -- The words 0 and 15 are far below 2³¹, so read signed they are the integers 0 and 15.
  have z0 : (0#32 : BitVec 32).toInt = 0 := by decide
  have z15 : (15#32 : BitVec 32).toInt = 15 := by decide
  rw [z0] at hlo
  rw [z15] at hhi
  exact ⟨hlo, hhi⟩

end Cert.QuantLinear

end
-- ==== Proof.lean ====
/- A 4-bit block-quantised linear layer with a low-rank correction, as one fused kernel, against its plain
   formulation: both compute, entry by entry, `Σₖ x·W + b + (Σᵣ (Σₖ x·A)·B)·1` with `W = (q − 8)·scale`, the sums and
   products grouped alike. They differ in one place: the kernel converts a code to a float and then subtracts 8, the
   reference subtracts 8 in 32-bit integers and then converts. For codes in `[0, 15]`, the range the reference states,
   the integer subtraction does not wrap and the two agree. -/
import proofs.«123627_j9380208575265_1_alg».proof.Defs
import proofs.«123627_j9380208575265_1_alg».proof.Proof.Gen.Kernel
import proofs.«123627_j9380208575265_1_alg».proof.Proof.Gen.Kernel.Skeleton
import proofs.«123627_j9380208575265_1_alg».proof.Proof.Gen.Kernel.Launch
import proofs.«123627_j9380208575265_1_alg».proof.Proof.Gen.Kernel.Points
import proofs.«123627_j9380208575265_1_alg».proof.Proof.Gen.Kernel.Frame
import proofs.«123627_j9380208575265_1_alg».proof.Proof.Gen.KernelIdeal
import proofs.«123627_j9380208575265_1_alg».proof.Proof.Gen.KernelIdeal.Skeleton
import proofs.«123627_j9380208575265_1_alg».proof.Proof.Gen.KernelIdeal.Launch
import proofs.«123627_j9380208575265_1_alg».proof.Proof.Gen.KernelIdeal.Points
import proofs.«123627_j9380208575265_1_alg».proof.Proof.Gen.KernelIdeal.Frame
import proofs.«123627_j9380208575265_1_alg».proof.Proof.Gen.ReferenceIdeal
import proofs.«123627_j9380208575265_1_alg».proof.Proof.Gen.Pre_finite_inputs
import proofs.«123627_j9380208575265_1_alg».proof.Proof.Gen.ReferenceIdeal.Run
import proofs.«123627_j9380208575265_1_alg».proof.Proof.Gen.ReferenceIdeal.Read
import proofs.«123627_j9380208575265_1_alg».proof.Proof.KernelRun
import proofs.«123627_j9380208575265_1_alg».proof.Proof.RefValue
import proofs.«123627_j9380208575265_1_alg».proof.Proof.PreDecode
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the layer of the arguments: the kernel by its tiles, the reference operation by
    operation, the codes' range (from the precondition) making the two ways of subtracting 8 agree. -/
theorem algebraic : Cert.algebraic_KernelIdeal_ReferenceIdeal := by
  intro m ρ m' ρ' hpre hagree
  refine ⟨fun c => Cert.QuantLinear.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.ValueOf.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2,
    Cert.ReferenceIdeal.Read.val_main_v15_eq]
  exact Cert.QuantLinear.ref_eq _ _ _ _ _ _ (Cert.QuantLinear.codes_of_pre _ _ _ _ _ _ (hpre c))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
